-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S1600000 : Shape := ⟨1, ![1600000]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S1600000 .f32) (main_arg2 : FVec F S4096 .f32) (main_arg3 : IVec S1600000 32) (main_arg4 : IVec S1600000 32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S1600000 : Shape := ⟨1, ![1600000]⟩
abbrev S4096 : Shape := ⟨1, ![4096]⟩
abbrev S_ : Shape := ⟨0, ![]⟩
abbrev S1600000x1 : Shape := ⟨2, ![1600000, 1]⟩
abbrev S1600000x2 : Shape := ⟨2, ![1600000, 2]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 30
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S1600000, .f32⟩
  | .hbm, ⟨2, _⟩ => ⟨S4096, .f32⟩
  | .hbm, ⟨3, _⟩ => ⟨S1600000, .i32⟩
  | .hbm, ⟨4, _⟩ => ⟨S1600000, .i32⟩
  | .hbm, ⟨5, _⟩ => ⟨S_, .f32⟩
  | .hbm, ⟨6, _⟩ => ⟨S4096x4096, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x1, .i32⟩
  | .hbm, ⟨23, _⟩ => ⟨S1600000x2, .i32⟩
  | .hbm, ⟨24, _⟩ => ⟨S4096x4096, .f32⟩
  | .hbm, ⟨25, _⟩ => ⟨S4096x4096, .f32⟩
  | .hbm, ⟨26, _⟩ => ⟨S4096x4096, .bf16⟩
  | .hbm, ⟨27, _⟩ => ⟨S4096x4096, .bf16⟩
  | .hbm, ⟨28, _⟩ => ⟨S1x4096, .f32⟩
  | .hbm, ⟨29, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x4096 : S_.BroadcastsInDim S4096x4096 (![] : Fin 0 → Fin S4096x4096.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x1_S1600000x1_S1600000x2_d1 : Shape.Concatenates [S1600000x1, S1600000x1] S1600000x2 1
  transposes_S4096x4096_S4096x4096_1_0 : S4096x4096.Transposes [1, 0] S4096x4096
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  scatter_S4096x4096_S1600000x2_S1600000_n_01_01_1_wf : ScatterDims.WF S4096x4096 S1600000x2 S1600000 [] [0, 1] [0, 1] 1
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .bf16 = 32 ∨ (Rect.block (s := S4096x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)

variable [Facts₀]

def scatter_S4096x4096_S1600000x2_S1600000_n_01_01_1 : ScatterDims S4096x4096 S1600000x2 S1600000 where
  updateWindowDims := []
  insertedWindowDims := [0, 1]
  scatterDimsToOperandDims := [0, 1]
  indexVectorDim := 1
  wf := scatter_S4096x4096_S1600000x2_S1600000_n_01_01_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v16) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S1600000 : Shape := ⟨1, ![1600000]⟩
abbrev S4096 : Shape := ⟨1, ![4096]⟩
abbrev S_ : Shape := ⟨0, ![]⟩
abbrev S1600000x1 : Shape := ⟨2, ![1600000, 1]⟩
abbrev S1600000x2 : Shape := ⟨2, ![1600000, 2]⟩
abbrev S1x4096 : Shape := ⟨2, ![1, 4096]⟩

abbrev nBuf : Space → Nat
  | .hbm => 30
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1600000, .f32⟩
  | .hbm, ⟨2, _⟩ => ⟨S4096, .f32⟩
  | .hbm, ⟨3, _⟩ => ⟨S1600000, .i32⟩
  | .hbm, ⟨4, _⟩ => ⟨S1600000, .i32⟩
  | .hbm, ⟨5, _⟩ => ⟨S_, .f32⟩
  | .hbm, ⟨6, _⟩ => ⟨S4096x4096, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x1, .i32⟩
  | .hbm, ⟨23, _⟩ => ⟨S1600000x2, .i32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S1x4096, .f32⟩
  | .hbm, ⟨28, _⟩ => ⟨S4096x4096, .f32⟩
  | .hbm, ⟨29, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x1_S1600000x1_S1600000x2_d1 : Shape.Concatenates [S1600000x1, S1600000x1] S1600000x2 1
  transposes_S4096x4096_S4096x4096_1_0 : S4096x4096.Transposes [1, 0] S4096x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  scatter_S4096x4096_S1600000x2_S1600000_n_01_01_1_wf : ScatterDims.WF S4096x4096 S1600000x2 S1600000 [] [0, 1] [0, 1] 1
  dot_S4096x4096_S4096x4096_S4096x4096_1_0_0_1_n_n_wf : DotDims.WF S4096x4096 S4096x4096 S4096x4096 [1] [0] [0] [1] [] []

variable [Facts₀]

def scatter_S4096x4096_S1600000x2_S1600000_n_01_01_1 : ScatterDims S4096x4096 S1600000x2 S1600000 where
  updateWindowDims := []
  insertedWindowDims := [0, 1]
  scatterDimsToOperandDims := [0, 1]
  indexVectorDim := 1
  wf := scatter_S4096x4096_S1600000x2_S1600000_n_01_01_1_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.SplitSum.lean ====
/-
  A sum over the 4096 contraction positions, regrouped into four consecutive runs of 1024.

  The blocked product adds the partial products of the four runs one after another; the plain product adds all 4096
  terms at once. In a commutative additive monoid (the extended reals with their addition are one) the two agree, with
  no finiteness assumption: only associativity of addition is used.
-/
import Mathlib.Algebra.BigOperators.Fin

open Finset

namespace Cert.SplitSum

variable {β : Type*} [AddCommMonoid β]

/-- Four terms, written out. -/
theorem range_four (g : ℕ → β) : ∑ s ∈ range 4, g s = g 0 + g 1 + g 2 + g 3 := by
  rw [show (4 : ℕ) = 0 + 1 + 1 + 1 + 1 from rfl, sum_range_succ, sum_range_succ, sum_range_succ, sum_range_succ,
    sum_range_zero, zero_add]

/-- Over the naturals: the first 4096 terms are the four runs `1024·s … 1024·s + 1023`, `s = 0 … 3`. -/
theorem range_runs (f : ℕ → β) :
    ∑ n ∈ range 4096, f n = ∑ s ∈ range 4, ∑ r ∈ range 1024, f (1024 * s + r) := by
  rw [range_four, show (4096 : ℕ) = 1024 + 1024 + 1024 + 1024 from rfl, sum_range_add, sum_range_add, sum_range_add]
  refine congrArg₂ (· + ·) (congrArg₂ (· + ·) (congrArg₂ (· + ·) ?_ ?_) ?_) ?_
  all_goals exact sum_congr rfl fun r _ => congrArg f (by omega)

/-- The same with the positions typed: a sum over `Fin 4096` is the sum over the run `s` of the sum over the place
    `r : Fin 1024` inside the run, of the term at position `1024·s + r`. -/
theorem fin_runs (f : ℕ → β) :
    ∑ k : Fin 4096, f k.val = ∑ s ∈ range 4, ∑ r : Fin 1024, f (1024 * s + r.val) := by
  rw [Fin.sum_univ_eq_sum_range (fun n => f n) 4096, range_runs]
  exact sum_congr rfl fun s _ => (Fin.sum_univ_eq_sum_range (fun r => f (1024 * s + r)) 1024).symm

end Cert.SplitSum
-- ==== Proof.Spec.lean ====
/-
  The result both programs compute, as one function of the arguments: `x · Wᵗ + bias`.

  `x` is the 4096 × 4096 input, `Wt` the transposed dense weight (contraction × output features) and `bias` the bias row;
  entry (i, j) of the result is `Σ_k x(i, k) · Wt(k, j) + bias(j)` over the extended reals. The second form groups the
  contraction into four runs of 1024 added one after another onto zero — the order in which a blocked product
  accumulates them; the two forms agree by associativity of addition alone.
-/
import proofs.«110400_j86208583565592_1_alg».proof.Proof.SplitSum
import Idealize.ShloMosaic.Lib.ValueIdx
import Idealize.ShloMosaic.PureOps.Ideal

noncomputable section

open Idealize.ShloMosaic Idealize.ShloMosaic.ValueIdx Finset

namespace Cert.Spec

/-- A 4096 × 4096 matrix of extended reals, and a row of 4096. -/
abbrev Mat : Type := (⟨2, ![4096, 4096]⟩ : Shape).Idx → EReal
abbrev Row : Type := (⟨1, ![4096]⟩ : Shape).Idx → EReal

/-- Entry (r, c) of a matrix at natural positions (`0` outside the matrix, where it is never read). -/
def ent (A : Mat) (r c : ℕ) : EReal := if h : r < 4096 ∧ c < 4096 then A (ix2 ⟨r, h.1⟩ ⟨c, h.2⟩) else 0

theorem ent_of_lt (A : Mat) (r c : ℕ) (hr : r < 4096) (hc : c < 4096) : ent A r c = A (ix2 ⟨r, hr⟩ ⟨c, hc⟩) :=
  dif_pos ⟨hr, hc⟩

theorem ent_fin (A : Mat) (r c : Fin 4096) : ent A r.val c.val = A (ix2 r c) := ent_of_lt A _ _ r.isLt c.isLt

/-- `x · Wt + bias`, entry by entry. -/
def affine (X Wt : Mat) (b : Row) : Mat := fun j =>
  (∑ k : Fin 4096, ent X (j 0).val k.val * ent Wt k.val (j 1).val) + b (ix1 (j 1))

/-- The partial product of contraction run `s` at entry (r, c): the 1024 products of places `1024·s … 1024·s + 1023`. -/
def part (X Wt : Mat) (r c s : ℕ) : EReal := ∑ kk : Fin 1024, ent X r (1024 * s + kk.val) * ent Wt (1024 * s + kk.val) c

/-- The blocked order: zero, plus the four runs' partial products, plus the bias. -/
theorem affine_runs (X Wt : Mat) (b : Row) (j : (⟨2, ![4096, 4096]⟩ : Shape).Idx) :
    affine X Wt b j = (0 + ∑ s ∈ range 4, part X Wt (j 0).val (j 1).val s) + b (ix1 (j 1)) := by
  unfold affine part
  rw [zero_add, SplitSum.fin_runs (fun k => ent X (j 0).val k * ent Wt k (j 1).val)]

end Cert.Spec

end
-- ==== Proof.RefValue.lean ====
/-
  The reference computes `x · Wᵗ + bias`.

  Its last three operations are a product of `x` with the transposed dense weight contracting `x`'s second axis with
  the weight's first, a bias row broadcast down the rows, and their sum. Read at entry (i, j) this is
  `Σ_k x(i, k) · Wt(k, j) + bias(j)`: the specification, with `Wt` whatever the scatter and the transpose before them
  left (that part of the program is the same in the kernel's program and is never opened).
-/
import proofs.«110400_j86208583565592_1_alg».proof.Proof.Gen.ReferenceIdeal.Read
import proofs.«110400_j86208583565592_1_alg».proof.Proof.Spec

noncomputable section

open Idealize.ShloMosaic Idealize.ShloMosaic.TcCoe Idealize.SL.Sem Idealize.ShloMosaic.ValueIdx

namespace Cert.RefValue

open Cert.ReferenceIdeal Cert.ReferenceIdeal.Read

/-- The reference's result, as a function of its arguments, is the specification at the transposed weight its own
    scatter and transpose compute. -/
theorem result_eq (x0 : (⟨S4096x4096, .f32⟩ : BufTy).Contents (Elt Ideal)) (x1 : (⟨S1600000, .f32⟩ : BufTy).Contents (Elt Ideal))
    (x2 : (⟨S4096, .f32⟩ : BufTy).Contents (Elt Ideal)) (x3 x4 : (⟨S1600000, .i32⟩ : BufTy).Contents (Elt Ideal)) :
    val_main_v19 (F := Ideal) x0 x1 x2 x3 x4 = Spec.affine x0 (val_main_v15 (F := Ideal) x1 x3 x4) x2 := by
  funext i
  rw [val_main_v19_apply, val_main_v16_apply, val_main_v18_apply, val_main_v17_apply]
  unfold Spec.affine
  refine congrArg₂ (· + ·) (Finset.sum_congr rfl fun k _ => ?_) (congrArg x2 ?_)
  · rw [Spec.ent_of_lt _ _ _ (i 0).isLt k.isLt, Spec.ent_of_lt _ _ _ k.isLt (i 1).isLt]
    refine congrArg₂ (· * ·) (congrArg x0 ?_) (congrArg (val_main_v15 (F := Ideal) x1 x3 x4) ?_)
    · exact funext fun a => Fin.ext (by match a with | ⟨0, _⟩ => rfl | ⟨1, _⟩ => rfl)
    · exact funext fun a => Fin.ext (by match a with | ⟨0, _⟩ => rfl | ⟨1, _⟩ => rfl)
  · exact funext fun a => Fin.ext (by match a with | ⟨0, _⟩ => rfl)

end Cert.RefValue

end
-- ==== Proof.ScratchSteps.lean ====
/-
  What one grid point leaves behind, as values.

  The body keeps a running block in a scratch buffer. At the first point of a run of four (the contraction coordinate
  is 0) it stores the zero block, reads it back and leaves `0 + a·b`; at every later point it leaves `acc + a·b` over
  what the point before left (`acc`); at the last point of the run it also reads the scratch once more and stores
  `scratch + bias` into the output block. Here `a`, `b` are the point's blocks of the two matrix operands and `a·b`
  their product into a zero accumulator. Each statement below reads the stores the body's run found back as ONE value:
  every store covers its whole buffer, so the last store of a buffer is what it holds.
-/
import proofs.«110400_j86208583565592_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Steps

open Cert.KernelIdeal Cert.KernelIdeal.Gen

variable {F : FTy → Type} [FloatOps F]

/-- Every store and load of the body starts at the origin of its buffer. -/
theorem origin : (![0, 0] : Fin 2 → Nat) = fun _ => 0 := funext fun a => by fin_cases a <;> rfl

/-- The product step: the running block `acc` plus the product of the blocks `a` and `b`. -/
abbrev step (acc : Vec F S1024x1024 .f32) (a b : Vec F S1024x1024 .bf16) : Vec F S1024x1024 .f32 := k0_pay2 acc a b

/-- The zero block the first point of a run stores. -/
abbrev zeroBlock : Vec F S1024x1024 .f32 := k0_pay1

/-- FIRST point of a run: the scratch ends at `0 + a·b` (the zero block stored, read back, stepped). -/
theorem scratch_first (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond0_0 i) (hc1 : ¬cond0_1 i)
    (a b : Vec F S1024x1024 .bf16) (bias : Vec F S1x1024 .f32) :
    sout0_A_0 c i a3 h3 a4 h4 a5 h5 a6 h6 a7 h7 hc0 hc1 a b bias = step zeroBlock a b := by
  unfold sout0_A_0
  rw [View.read_writes_eq_canon _ _ _ (scover0_A_0 c i a3 h3 a4 h4 a5 h5 a6 h6 a7 h7 hc0 hc1 a b bias)]
  unfold kernelRun0_A
  dsimp only
  sl_unfold_words
  rw [View.canon_cons_unit_zero (S := S1024x1024) origin, View.readCov_unit_zero (S := S1024x1024) _ origin]
  simp only [View.readAt_eq_ld, h3.read_unread, h4.read_unread, View.ld_unit_zero (S := S1024x1024) origin]

/-- MIDDLE point of a run: the scratch ends at `acc + a·b`. -/
theorem scratch_middle (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : ¬cond0_1 i)
    (a b : Vec F S1024x1024 .bf16) (bias : Vec F S1x1024 .f32) (acc : Vec F S1024x1024 .f32) :
    sout0_B_0 c i a3 h3 a4 h4 a5 h5 a6 h6 a7 h7 hc0 hc1 a b bias acc = step acc a b := by
  unfold sout0_B_0
  rw [View.read_writes_eq_canon _ _ _ (scover0_B_0 c i a3 h3 a4 h4 a5 h5 a6 h6 a7 h7 hc0 hc1 a b bias acc)]
  unfold kernelRun0_B
  dsimp only
  sl_unfold_words
  rw [View.canon_unit_zero origin]
  simp only [View.readAt_eq_ld, h3.read_unread, h4.read_unread, h7.read_unread, View.ld_unit_zero (S := S1024x1024) origin]

/-- LAST point of a run: the scratch ends at `acc + a·b` as well, -/
theorem scratch_last (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (a b : Vec F S1024x1024 .bf16) (bias : Vec F S1x1024 .f32) (acc : Vec F S1024x1024 .f32) :
    sout0_C_0 c i a3 h3 a4 h4 a5 h5 a6 h6 a7 h7 hc0 hc1 a b bias acc = step acc a b := by
  unfold sout0_C_0
  rw [View.read_writes_eq_canon _ _ _ (scover0_C_0 c i a3 h3 a4 h4 a5 h5 a6 h6 a7 h7 hc0 hc1 a b bias acc)]
  unfold kernelRun0_C
  dsimp only
  sl_unfold_words
  rw [View.canon_unit_zero origin]
  simp only [View.readAt_eq_ld, h3.read_unread, h4.read_unread, h7.read_unread, View.ld_unit_zero (S := S1024x1024) origin]

/-- and the output block is that scratch plus the bias row, broadcast down the rows. -/
theorem out_last (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (a b : Vec F S1024x1024 .bf16) (bias : Vec F S1x1024 .f32) (acc : Vec F S1024x1024 .f32) :
    out0_C_3 c i a3 h3 a4 h4 a5 h5 a6 h6 a7 h7 hc0 hc1 a b bias acc = k0_pay3 (step acc a b) bias := by
  unfold out0_C_3
  rw [View.read_writes_eq_canon _ _ _ (cover0_C_3 c i a3 h3 a4 h4 a5 h5 a6 h6 a7 h7 hc0 hc1 a b bias acc)]
  unfold kernelRun0_C
  dsimp only
  sl_unfold_words
  rw [View.canon_unit_zero origin]
  simp only [View.readAt_eq_ld, h3.read_unread, h4.read_unread, h5.read_unread, h7.read_unread, View.ld_unit_zero (S := S1024x1024) origin,
    View.ld_unit_zero (S := S1x1024) origin, View.readCov_unit_zero (S := S1024x1024) _ origin]

end Cert.KernelIdeal.Steps

end
-- ==== Proof.BlockValue.lean ====
/-
  The body's three stored values, read at one entry of the block, over the extended reals.

  With `acc` the running block, `a` a block of the left operand (rows × contraction) and `b` a block of the right one
  (contraction × columns):
    the zero block is `0` everywhere;
    the product step at (p, q) is `acc(p, q) + Σ_r a(p, r) · b(r, q)`, the sum over the block's 1024 contraction places
      (a matrix product into a zero accumulator is the plain sum of products there, and a change of float format is the
      identity);
    the closing value at (p, q) is `acc(p, q) + bias(0, q)`: the bias row repeated down the rows.
-/
import proofs.«110400_j86208583565592_1_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.KernelIdeal.BlockValue

open Cert.KernelIdeal Cert.KernelIdeal.Gen

/-- The zero block: `0` at every entry. -/
theorem zero_apply (y : S1024x1024.Idx) : (k0_pay1 (F := Ideal)) y = 0 := by
  unfold k0_pay1
  rw [shapeCast_self]
  exact Ideal.ofBits_zero_f32

/-! ### The block product's operand positions

The product contracts the left operand's second axis with the right operand's first: at output entry `i` and
contraction place `r` it reads the left operand at `(i 0, r)` and the right one at `(r, i 1)`. -/

theorem left_row (i : S1024x1024.Idx) (r : dot_S1024x1024_S1024x1024_S1024x1024_1_0_0_1_n_n.contr.Idx) :
    (dot_S1024x1024_S1024x1024_S1024x1024_1_0_0_1_n_n.lhsIdx i r 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem left_place (i : S1024x1024.Idx) (r : dot_S1024x1024_S1024x1024_S1024x1024_1_0_0_1_n_n.contr.Idx) :
    (dot_S1024x1024_S1024x1024_S1024x1024_1_0_0_1_n_n.lhsIdx i r 1).val = (r ⟨0, by decide⟩).val :=
  dot_S1024x1024_S1024x1024_S1024x1024_1_0_0_1_n_n.lhsIdx_val_of_single rfl i r
theorem right_place (i : S1024x1024.Idx) (r : dot_S1024x1024_S1024x1024_S1024x1024_1_0_0_1_n_n.contr.Idx) :
    (dot_S1024x1024_S1024x1024_S1024x1024_1_0_0_1_n_n.rhsIdx i r 0).val = (r ⟨0, by decide⟩).val :=
  dot_S1024x1024_S1024x1024_S1024x1024_1_0_0_1_n_n.rhsIdx_val_of_single rfl i r
theorem right_col (i : S1024x1024.Idx) (r : dot_S1024x1024_S1024x1024_S1024x1024_1_0_0_1_n_n.contr.Idx) :
    (dot_S1024x1024_S1024x1024_S1024x1024_1_0_0_1_n_n.rhsIdx i r 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The block product into a zero accumulator at entry (p, q): the sum over the contraction places of the products. -/
theorem product_apply (a b : FVec Ideal S1024x1024 .bf16) (p q : Fin 1024) :
    matmul (F := Ideal) dot_S1024x1024_S1024x1024_S1024x1024_1_0_0_1_n_n none a b (constant S1024x1024 .f32 0x00000000#32) (ix2 p q)
      = ∑ r : Fin 1024, a (ix2 p r) * b (ix2 r q) := by
  show FloatOps.matmul dot_S1024x1024_S1024x1024_S1024x1024_1_0_0_1_n_n none a b (constant S1024x1024 .f32 0x00000000#32) (ix2 p q) = _
  rw [Ideal.matmul_constant_zero_apply, ← Equiv.sum_comp (ValueIdx.contrEquiv1 dot_S1024x1024_S1024x1024_S1024x1024_1_0_0_1_n_n 1024 rfl rfl).symm]
  refine Finset.sum_congr rfl fun r _ => ?_
  have hr := ValueIdx.contrEquiv1_symm_val dot_S1024x1024_S1024x1024_S1024x1024_1_0_0_1_n_n 1024 rfl rfl r
  have el : dot_S1024x1024_S1024x1024_S1024x1024_1_0_0_1_n_n.lhsIdx (ix2 p q) ((ValueIdx.contrEquiv1 dot_S1024x1024_S1024x1024_S1024x1024_1_0_0_1_n_n 1024 rfl rfl).symm r) = ix2 p r := funext fun x => Fin.ext (by
    match x with
    | ⟨0, _⟩ => exact left_row _ _
    | ⟨1, _⟩ => exact (left_place _ _).trans hr)
  have er : dot_S1024x1024_S1024x1024_S1024x1024_1_0_0_1_n_n.rhsIdx (ix2 p q) ((ValueIdx.contrEquiv1 dot_S1024x1024_S1024x1024_S1024x1024_1_0_0_1_n_n 1024 rfl rfl).symm r) = ix2 r q := funext fun x => Fin.ext (by
    match x with
    | ⟨0, _⟩ => exact (right_place _ _).trans hr
    | ⟨1, _⟩ => exact right_col _ _)
  rw [el, er]

/-- The product step at entry (p, q). -/
theorem step_apply (acc : Vec Ideal S1024x1024 .f32) (a b : Vec Ideal S1024x1024 .bf16) (p q : Fin 1024) :
    k0_pay2 (F := Ideal) acc a b (ix2 p q) = acc (ix2 p q) + ∑ r : Fin 1024, a (ix2 p r) * b (ix2 r q) := by
  unfold k0_pay2
  rw [shapeCast_self, shapeCast_self, shapeCast_self]
  exact congrArg (acc (ix2 p q) + ·) (product_apply a b p q)

/-- The closing value at entry (p, q): the running block plus the bias row's entry of that column. -/
theorem biased_apply (acc : Vec Ideal S1024x1024 .f32) (bias : Vec Ideal S1x1024 .f32) (p q : Fin 1024) :
    k0_pay3 (F := Ideal) acc bias (ix2 p q) = acc (ix2 p q) + bias (ix2 0 q) := by
  unfold k0_pay3
  rw [shapeCast_self]
  refine congrArg (acc (ix2 p q) + ·) ?_
  refine broadcastTo_apply bias broadcasts_S1x1024_S1024x1024 (ix2 p q) (ix2 0 q) (fun x => ?_)
  match x with
  | ⟨0, _⟩ => rfl
  | ⟨1, _⟩ => rfl

end Cert.KernelIdeal.BlockValue

end
-- ==== Proof.StagedBlocks.lean ====
/-
  The blocks of the three staged arrays a grid point works on.

  The grid has 4 × 4 × 4 points; point `t` works on row block `t / 16`, column block `t / 4 mod 4` and contraction run
  `t mod 4`: its left block is rows `1024·(t/16) …` by columns `1024·(t mod 4) …` of the left operand, its right block
  rows `1024·(t mod 4) …` by columns `1024·(t/4 mod 4) …` of the right operand, its bias block the columns
  `1024·(t/4 mod 4) …` of the one-row bias array, its output block rows `1024·(t/16) …` by columns `1024·(t/4 mod 4) …`.
  The statements are about ANY contents of the arrays: nothing here depends on what the arrays hold.
-/
import proofs.«110400_j86208583565592_1_alg».proof.Proof.Gen.KernelIdeal.Frame
import proofs.«110400_j86208583565592_1_alg».proof.Proof.Spec

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable (m : (ℓ : Loc nD τ sig) → Buf (Elt Ideal) ℓ) (ρ : Dev nD → PrngReg)

/-- Which block of each array point `t` works on. -/
theorem block_of_point : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

theorem point_lt (t : Fin cfg0.N) : t.val < 64 := lt_of_lt_of_eq t.isLt (show cfg0.N = 64 from N_0)

/-- Entry (p, r) of the left block is entry (1024·(t/16) + p, 1024·(t mod 4) + r) of the left operand. -/
theorem read_left (A : Spec.Mat) (t : Fin cfg0.N) (p r : Fin 1024) :
    ((cfg0.win 0).blk t).view.read (Elt Ideal) A (ix2 p r)
      = Spec.ent A (1024 * (t.val / 16) + p.val) (1024 * (t.val % 4) + r.val) := by
  have hN := point_lt t
  have hp := p.isLt
  have hr := r.isLt
  obtain ⟨e0, e1, -⟩ := block_of_point t
  rw [Spec.ent_of_lt _ _ _ (by omega) (by omega)]
  show A (((cfg0.win 0).blk t).view.emb (ix2 p r)) = A _
  refine congrArg A (funext fun a => Fin.ext ?_)
  match a with
  | ⟨0, _⟩ => show win0_0.index t (0 : Fin 2) * 1024 + 1 * p.val = 1024 * (t.val / 16) + p.val; omega
  | ⟨1, _⟩ => show win0_0.index t (1 : Fin 2) * 1024 + 1 * r.val = 1024 * (t.val % 4) + r.val; omega

/-- Entry (r, q) of the right block is entry (1024·(t mod 4) + r, 1024·(t/4 mod 4) + q) of the right operand. -/
theorem read_right (A : Spec.Mat) (t : Fin cfg0.N) (r q : Fin 1024) :
    ((cfg0.win 1).blk t).view.read (Elt Ideal) A (ix2 r q)
      = Spec.ent A (1024 * (t.val % 4) + r.val) (1024 * (t.val / 4 % 4) + q.val) := by
  have hN := point_lt t
  have hq := q.isLt
  have hr := r.isLt
  obtain ⟨-, -, e2, e3, -⟩ := block_of_point t
  rw [Spec.ent_of_lt _ _ _ (by omega) (by omega)]
  show A (((cfg0.win 1).blk t).view.emb (ix2 r q)) = A _
  refine congrArg A (funext fun a => Fin.ext ?_)
  match a with
  | ⟨0, _⟩ => show win0_1.index t (0 : Fin 2) * 1024 + 1 * r.val = 1024 * (t.val % 4) + r.val; omega
  | ⟨1, _⟩ => show win0_1.index t (1 : Fin 2) * 1024 + 1 * q.val = 1024 * (t.val / 4 % 4) + q.val; omega

/-- Entry (0, q) of the bias block is entry (0, 1024·(t/4 mod 4) + q) of the one-row bias array. -/
theorem read_bias (B : Vec Ideal S1x4096 .f32) (t : Fin cfg0.N) (q : Fin 1024) (hc : 1024 * (t.val / 4 % 4) + q.val < 4096) :
    ((cfg0.win 2).blk t).view.read (Elt Ideal) B (ix2 0 q) = B (ix2 0 ⟨1024 * (t.val / 4 % 4) + q.val, hc⟩) := by
  have hq := q.isLt
  obtain ⟨-, -, -, -, e4, e5, -⟩ := block_of_point t
  show B (((cfg0.win 2).blk t).view.emb (ix2 0 q)) = B _
  refine congrArg B (funext fun a => Fin.ext ?_)
  match a with
  | ⟨0, _⟩ => show win0_2.index t (0 : Fin 2) * 1 + 1 * 0 = 0; omega
  | ⟨1, _⟩ => show win0_2.index t (1 : Fin 2) * 1024 + 1 * q.val = 1024 * (t.val / 4 % 4) + q.val; omega

/-- Entry (p, q) of the output block sits at (1024·(t/16) + p, 1024·(t/4 mod 4) + q) of the result array. -/
theorem read_out (G : Spec.Mat) (t : Fin cfg0.N) (p q : Fin 1024)
    (hr : 1024 * (t.val / 16) + p.val < 4096) (hc : 1024 * (t.val / 4 % 4) + q.val < 4096) :
    ((cfg0.win 3).blk t).view.read (Elt Ideal) G (ix2 p q)
      = G (ix2 ⟨1024 * (t.val / 16) + p.val, hr⟩ ⟨1024 * (t.val / 4 % 4) + q.val, hc⟩) := by
  obtain ⟨-, -, -, -, -, -, e6, e7⟩ := block_of_point t
  show G (((cfg0.win 3).blk t).view.emb (ix2 p q)) = G _
  refine congrArg G (funext fun a => Fin.ext ?_)
  match a with
  | ⟨0, _⟩ => show win0_3.index t (0 : Fin 2) * 1024 + 1 * p.val = 1024 * (t.val / 16) + p.val; omega
  | ⟨1, _⟩ => show win0_3.index t (1 : Fin 2) * 1024 + 1 * q.val = 1024 * (t.val / 4 % 4) + q.val; omega

/-- Every entry of the result array lies in the output block of the point of its row block and column block with
    contraction run 3. -/
theorem cover (i : S4096x4096.Idx) :
    ∃ t : Fin cfg0.N, (cfg0.win 3).flush t = true ∧ i ∈ ((cfg0.win 3).blk t).view.set := by
  have h0 : (i 0).val < 4096 := (i 0).isLt
  have h1 : (i 1).val < 4096 := (i 1).isLt
  have hlt : 16 * ((i 0).val / 1024) + 4 * ((i 1).val / 1024) + 3 < cfg0.N := by rw [show cfg0.N = 64 from N_0]; omega
  obtain ⟨t, ht⟩ : ∃ t : Fin cfg0.N, t.val = 16 * ((i 0).val / 1024) + 4 * ((i 1).val / 1024) + 3 := ⟨⟨_, hlt⟩, rfl⟩
  obtain ⟨-, -, -, -, -, -, e6, e7⟩ := block_of_point t
  refine ⟨t, (flush0_3 t).mpr (by omega), ?_⟩
  show i ∈ ((View.whole main_v19).slice (win0_3.rect t)).set
  rw [View.set_slice_whole, Rect.mem_set_unit]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

end Cert.KernelIdeal.Blocks

end
-- ==== Proof.ScratchFold.lean ====
/-
  The scratch block over a run of four points.

  Over a run of four consecutive points (one row block, one column block, the four contraction runs) the scratch
  accumulates `0 + P₀ + P₁ + P₂ + P₃`, where `P_s` is the partial product of contraction run `s`; the last point of the
  run also leaves, in the output block, that scratch plus the bias block's row.
-/
import proofs.«110400_j86208583565592_1_alg».proof.Proof.Gen.KernelIdeal.Value
import proofs.«110400_j86208583565592_1_alg».proof.Proof.ScratchSteps
import proofs.«110400_j86208583565592_1_alg».proof.Proof.BlockValue
import proofs.«110400_j86208583565592_1_alg».proof.Proof.StagedBlocks

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable (m : (ℓ : Loc nD τ sig) → Buf (Elt Ideal) ℓ) (ρ : Dev nD → PrngReg)

/-! ## The staged arrays and their blocks -/

/-- The left operand (rows × contraction), the right operand (contraction × columns) and the one-row bias array, as the
    region finds them. -/
def lhsArr (c : Dev nD) : Spec.Mat := V m c (Pipeline.arrRef spec0 0)
def rhsArr (c : Dev nD) : Spec.Mat := V m c (Pipeline.arrRef spec0 1)
def biasArr (c : Dev nD) : Vec Ideal S1x4096 .f32 := V m c (Pipeline.arrRef spec0 2)

/-- Their blocks at point `t`. -/
abbrev lhsBlk (c : Dev nD) (t : Fin cfg0.N) : Vec Ideal S1024x1024 .bf16 := iblk m c 0 t
abbrev rhsBlk (c : Dev nD) (t : Fin cfg0.N) : Vec Ideal S1024x1024 .bf16 := iblk m c 1 t
abbrev biasBlk (c : Dev nD) (t : Fin cfg0.N) : Vec Ideal S1x1024 .f32 := iblk m c 2 t

theorem lhsBlk_eq (c : Dev nD) (t : Fin cfg0.N) :
    lhsBlk m c t = ((cfg0.win 0).blk t).view.read (Elt Ideal) (lhsArr m c) := rfl
theorem rhsBlk_eq (c : Dev nD) (t : Fin cfg0.N) :
    rhsBlk m c t = ((cfg0.win 1).blk t).view.read (Elt Ideal) (rhsArr m c) := rfl
theorem biasBlk_eq (c : Dev nD) (t : Fin cfg0.N) :
    biasBlk m c t = ((cfg0.win 2).blk t).view.read (Elt Ideal) (biasArr m c) := rfl

/-! ## One point's step on the scratch block -/

/-- What point `n` adds at block entry `i`: its contraction run's partial product at the entry's place in the array. -/
def addend (c : Dev nD) (n : ℕ) (i : S1024x1024.Idx) : EReal :=
  Spec.part (lhsArr m c) (rhsArr m c) (1024 * (n / 16) + (i 0).val) (1024 * (n / 4 % 4) + (i 1).val) (n % 4)

/-- The product step on the point's blocks adds that addend. -/
theorem step_blocks (c : Dev nD) (t : Fin cfg0.N) (acc : Vec Ideal S1024x1024 .f32) (i : S1024x1024.Idx) :
    Steps.step acc (lhsBlk m c t) (rhsBlk m c t) i = acc i + addend m c t.val i := by
  obtain ⟨p, q, rfl⟩ : ∃ (p q : Fin 1024), i = ix2 p q := ⟨i 0, i 1, eq_ix2 i⟩
  refine (BlockValue.step_apply acc (lhsBlk m c t) (rhsBlk m c t) p q).trans ?_
  unfold addend Spec.part
  refine congrArg (acc (ix2 p q) + ·) (Finset.sum_congr rfl fun r _ => ?_)
  rw [lhsBlk_eq, rhsBlk_eq]
  exact congrArg₂ (· * ·) (read_left (lhsArr m c) t p r) (read_right (rhsArr m c) t r q)

/-- At the first point of a run the scratch is left at the step on the zero block, whatever it held. -/
theorem scratch_at_first (c : Dev nD) (n : ℕ) (h : n < cfg0.N) (h0 : n % 4 = 0) (acc : Vec Ideal S1024x1024 .f32) :
    Value.scAt0_0 m c n h acc = Steps.step Steps.zeroBlock (lhsBlk m c ⟨n, h⟩) (rhsBlk m c ⟨n, h⟩) := by
  have h1 : ¬n % 4 = 3 := by omega
  unfold Value.scAt0_0
  rw [dif_pos h0, dif_neg h1]
  exact Steps.scratch_first (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _) _ _ (iblk m c 0 (⟨n, h⟩ : Fin cfg0.N)) (iblk m c 1 (⟨n, h⟩ : Fin cfg0.N)) (iblk m c 2 (⟨n, h⟩ : Fin cfg0.N))

/-- At every later point of a run it is left at the step on what the point before left. -/
theorem scratch_at_later (c : Dev nD) (n : ℕ) (h : n < cfg0.N) (h0 : ¬n % 4 = 0) (acc : Vec Ideal S1024x1024 .f32) :
    Value.scAt0_0 m c n h acc = Steps.step acc (lhsBlk m c ⟨n, h⟩) (rhsBlk m c ⟨n, h⟩) := by
  unfold Value.scAt0_0
  rw [dif_neg h0]
  by_cases h1 : n % 4 = 3
  · rw [dif_pos h1]
    exact Steps.scratch_last (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _) _ _ (iblk m c 0 (⟨n, h⟩ : Fin cfg0.N)) (iblk m c 1 (⟨n, h⟩ : Fin cfg0.N)) (iblk m c 2 (⟨n, h⟩ : Fin cfg0.N)) acc
  · rw [dif_neg h1]
    exact Steps.scratch_middle (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _) _ _ (iblk m c 0 (⟨n, h⟩ : Fin cfg0.N)) (iblk m c 1 (⟨n, h⟩ : Fin cfg0.N)) (iblk m c 2 (⟨n, h⟩ : Fin cfg0.N)) acc

/-! ## The scratch after the last point of a run, and the block that point leaves -/

/-- After the last point of a run the scratch holds zero plus the four addends of the run, in order. -/
theorem scratch_fold (c : Dev nD) (t : Fin cfg0.N) (h1 : t.val % 4 = 3) (i : S1024x1024.Idx) :
    (outsAt0 m c t.val t.isLt).2 i = 0 + ∑ s ∈ Finset.range 4, addend m c (4 * (t.val / 4) + s) i := by
  have hN := point_lt t
  rw [Value.soutsAt0_0_eq m c t]
  have key := Pipeline.accAt_add_apply (N := cfg0.N)
    (fun n h => Value.scAt0_0 m c n h (VS0_0.read (Elt Ideal) VS0_0.junk)) (Value.scAt0_0 m c)
    (fun _ => (0 : EReal)) (addend m c) (4 * (t.val / 4)) 3
    (fun h i => by
      show Value.scAt0_0 m c (4 * (t.val / 4)) h _ i = _
      rw [scratch_at_first m c _ h (by omega)]
      exact (step_blocks m c ⟨4 * (t.val / 4), h⟩ Steps.zeroBlock i).trans
        (congrArg (· + addend m c (4 * (t.val / 4)) i) (BlockValue.zero_apply i)))
    (fun n h acc i hb hn => by
      rw [scratch_at_later m c n h (by omega)]
      exact step_blocks m c ⟨n, h⟩ acc i)
    (t.val % 4) (by omega) (by have := t.isLt; omega) i
  rw [key, h1]

/-- At the last point of a run the output block is the scratch that point leaves plus the bias block's row. -/
theorem out_biased (c : Dev nD) (t : Fin cfg0.N) (h0 : ¬t.val % 4 = 0) (h1 : t.val % 4 = 3) :
    (outsAt0 m c t.val t.isLt).1 = k0_pay3 (F := Ideal) (outsAt0 m c t.val t.isLt).2 (biasBlk m c t) := by
  rw [outsAt0_C m c t h0 h1]
  dsimp only
  rw [Steps.out_last (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) (outsAt0 m c (t.val - 1) (Nat.lt_of_le_of_lt (Nat.sub_le _ _) t.isLt)).2,
    Steps.scratch_last (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) (outsAt0 m c (t.val - 1) (Nat.lt_of_le_of_lt (Nat.sub_le _ _) t.isLt)).2]

end Cert.KernelIdeal.Blocks

end
-- ==== Proof.KernelValue.lean ====
/-
  What the kernel's result array holds after the run: `x · Wᵗ + bias` of the three arrays the region stages.

  The last point of each run of four writes its output block back; entry by entry that block is the specification in
  its blocked order (zero, the four partial products, the bias), and the sixteen written blocks tile the 4096 × 4096
  array.
-/
import proofs.«110400_j86208583565592_1_alg».proof.Proof.ScratchFold

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable (m : (ℓ : Loc nD τ sig) → Buf (Elt Ideal) ℓ) (ρ : Dev nD → PrngReg)

/-- The bias array's one row, as a row. -/
def biasRow (c : Dev nD) : Spec.Row := fun j => biasArr m c (ix2 0 (j 0))

/-- THE RESULT: the specification at the three staged arrays. -/
def result (c : Dev nD) : Spec.Mat := Spec.affine (lhsArr m c) (rhsArr m c) (biasRow m c)

/-- Entry (p, q) of the block the last point of a run leaves is the result's entry at that place of the array. -/
theorem out_entry (c : Dev nD) (t : Fin cfg0.N) (h1 : t.val % 4 = 3) (p q : Fin 1024)
    (hr : 1024 * (t.val / 16) + p.val < 4096) (hc : 1024 * (t.val / 4 % 4) + q.val < 4096) :
    (outsAt0 m c t.val t.isLt).1 (ix2 p q)
      = result m c (ix2 ⟨1024 * (t.val / 16) + p.val, hr⟩ ⟨1024 * (t.val / 4 % 4) + q.val, hc⟩) := by
  have h0 : ¬t.val % 4 = 0 := by omega
  rw [out_biased m c t h0 h1, BlockValue.biased_apply, scratch_fold m c t h1, biasBlk_eq, read_bias (biasArr m c) t q hc]
  unfold result
  rw [Spec.affine_runs]
  refine congrArg₂ (· + ·) (congrArg (0 + ·) (Finset.sum_congr rfl fun s hs => ?_)) rfl
  have hs' : s < 4 := Finset.mem_range.mp hs
  have e1 : (4 * (t.val / 4) + s) / 16 = t.val / 16 := by omega
  have e2 : (4 * (t.val / 4) + s) / 4 % 4 = t.val / 4 % 4 := by omega
  have e3 : (4 * (t.val / 4) + s) % 4 = s := by omega
  unfold addend
  rw [e1, e2, e3]

/-- WHAT THE LAST POINT OF A RUN WRITES BACK is its block of the result. -/
theorem flushed_eq (c : Dev nD) (t : Fin cfg0.N) (hf : (cfg0.win 3).flush t = true) :
    (dats m 0 c).flushed 3 t = ((cfg0.win 3).blk t).view.read (Elt Ideal) (result m c) := by
  have h1 : t.val % 4 = 3 := (flush0_3 t).mp hf
  have hN := point_lt t
  rw [Value.flushed3]
  funext y
  obtain ⟨p, q, rfl⟩ : ∃ (p q : Fin 1024), y = ix2 p q := ⟨y 0, y 1, eq_ix2 y⟩
  have hp := p.isLt
  have hq := q.isLt
  rw [read_out (result m c) t p q (by omega) (by omega)]
  exact out_entry m c t h1 p q (by omega) (by omega)

/-- So the result array ends at the specification of the staged arrays (the written blocks tile it). -/
theorem final (c : Dev nD) : (dats m 0 c).arrAt 3 cfg0.N = result m c :=
  (dats m 0 c).arrAt_eq_of_cover 3 (result m c) (flushed_eq m c) cover

/-- The run, read: the result array at the specification of the staged arrays, the arguments unchanged. -/
theorem run : θ_run defs (onTc (τ := τ) (main (F := Ideal))) ⟨m, fun _ => 0, ρ⟩ fun r => ∀ c : Dev nD,
      r.2.mem ((c : Thread nD τ).loc main_v19) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Blocks

end
-- ==== Proof.StagedArrays.lean ====
/-
  The three arrays the region stages, in terms of the arguments.

  Before the region the program casts the input to bf16 (the identity over the extended reals), builds the dense
  weight by the scatter, transposes it and casts it, and reshapes the bias to one row. So the left operand is the
  input itself, the right operand is the transposed dense weight — the very term the reference's own scatter and
  transpose compute, from the same arguments —, and the bias row read along its one row is the bias.
-/
import proofs.«110400_j86208583565592_1_alg».proof.Proof.Gen.KernelIdeal.Frame
import proofs.«110400_j86208583565592_1_alg».proof.Proof.Gen.ReferenceIdeal.Read
import proofs.«110400_j86208583565592_1_alg».proof.Proof.Spec
import Idealize.ShloMosaic.Lib.StableHlo.Run
import Idealize.ShloMosaic.Lib.Pipeline.Value

noncomputable section

open Idealize.ShloMosaic Idealize.ShloMosaic.TcCoe Idealize.SL.Sem Idealize.ShloMosaic.ValueIdx

namespace Cert.KernelIdeal.Staged

open Cert.KernelIdeal Cert.KernelIdeal.Gen

variable (m : (ℓ : Loc nD τ sig) → Buf (Elt Ideal) ℓ)

/-- The left operand is the input. -/
theorem lhs_eq (c : Dev nD) : (V m c main_v16 : Spec.Mat) = m ((c : Thread nD τ).loc main_arg0) := by
  have e : (V m c main_v16 : S4096x4096.Idx → EReal)
      = truncf (F := Ideal) .bf16 (m ((c : Thread nD τ).loc main_arg0)) bitsLt_bf16_f32 := by
    dsimp only [Gen.V, Gen.hostOps0]; after_results <;> rfl
  exact e

set_option maxHeartbeats 2000000 in
/-- The right operand is the transposed dense weight, as the reference's program computes it from the same arguments. -/
theorem rhs_eq (c : Dev nD) :
    (V m c main_v17 : Spec.Mat) = Cert.ReferenceIdeal.Read.val_main_v15 (F := Ideal)
      (m ((c : Thread nD τ).loc main_arg1)) (m ((c : Thread nD τ).loc main_arg3)) (m ((c : Thread nD τ).loc main_arg4)) := by
  show (V m c main_v17 : S4096x4096.Idx → EReal) = _
  dsimp only [Gen.V, Gen.hostOps0]; after_results <;> rfl

/-- The bias row, read along its one row, is the bias. -/
theorem bias_eq (c : Dev nD) :
    (fun j : (⟨1, ![4096]⟩ : Shape).Idx => (V m c main_v18 : Vec Ideal S1x4096 .f32) (ix2 0 (j 0))) = m ((c : Thread nD τ).loc main_arg2) := by
  have e : (V m c main_v18 : S1x4096.Idx → EReal)
      = shapeCast S1x4096 (m ((c : Thread nD τ).loc main_arg2)) shapeCasts_S4096_S1x4096 := by
    dsimp only [Gen.V, Gen.hostOps0]; after_results <;> rfl
  funext j
  show (V m c main_v18 : S1x4096.Idx → EReal) (ix2 0 (j 0)) = _
  rw [e]
  refine (shapeCast_addUnit_apply ![4096] (m ((c : Thread nD τ).loc main_arg2)) shapeCasts_S4096_S1x4096 (ix2 0 (j 0))).trans ?_
  exact congrArg (m ((c : Thread nD τ).loc main_arg2)) (funext fun a => by match a with | ⟨0, _⟩ => rfl)

end Cert.KernelIdeal.Staged

end
-- ==== Proof.KernelResult.lean ====
/-
  The kernel's result array in terms of the arguments: `x · Wᵗ + bias` with `x` the input, `Wᵗ` the transposed dense
  weight the scatter builds, `bias` the bias — the staged arrays replaced by what the program's operations before the
  region make them.
-/
import proofs.«110400_j86208583565592_1_alg».proof.Proof.KernelValue
import proofs.«110400_j86208583565592_1_alg».proof.Proof.StagedArrays

noncomputable section

open Idealize.ShloMosaic Idealize.ShloMosaic.TcCoe Idealize.SL.Sem Idealize.ShloMosaic.ValueIdx

namespace Cert.KernelIdeal.Blocks

open Cert.KernelIdeal Cert.KernelIdeal.Gen

variable (m : (ℓ : Loc nD τ sig) → Buf (Elt Ideal) ℓ)

theorem lhsArr_eq (c : Dev nD) : lhsArr m c = m ((c : Thread nD τ).loc main_arg0) :=
  (show lhsArr m c = (V m c main_v16 : Spec.Mat) from rfl).trans (Staged.lhs_eq m c)

theorem rhsArr_eq (c : Dev nD) :
    rhsArr m c = Cert.ReferenceIdeal.Read.val_main_v15 (F := Ideal)
      (m ((c : Thread nD τ).loc main_arg1)) (m ((c : Thread nD τ).loc main_arg3)) (m ((c : Thread nD τ).loc main_arg4)) :=
  (show rhsArr m c = (V m c main_v17 : Spec.Mat) from rfl).trans (Staged.rhs_eq m c)

theorem biasRow_eq (c : Dev nD) : biasRow m c = m ((c : Thread nD τ).loc main_arg2) :=
  (show biasRow m c = (fun j : (⟨1, ![4096]⟩ : Shape).Idx => (V m c main_v18 : Vec Ideal S1x4096 .f32) (ix2 0 (j 0))) from rfl).trans
    (Staged.bias_eq m c)

/-- The result array, after the run, as a function of the arguments. -/
theorem result_eq (c : Dev nD) :
    result m c = Spec.affine (m ((c : Thread nD τ).loc main_arg0))
      (Cert.ReferenceIdeal.Read.val_main_v15 (F := Ideal)
        (m ((c : Thread nD τ).loc main_arg1)) (m ((c : Thread nD τ).loc main_arg3)) (m ((c : Thread nD τ).loc main_arg4)))
      (m ((c : Thread nD τ).loc main_arg2)) := by
  unfold result
  rw [lhsArr_eq, rhsArr_eq, biasRow_eq]

end Cert.KernelIdeal.Blocks

end
-- ==== Proof.lean ====
/-
  A sparse linear layer: the dense weight `W` is scattered from its coordinate entries, and the output is
  `x · Wᵗ + bias`.

  The kernel computes the product block by block. Its grid has 4 × 4 × 4 points: a row block of 1024 rows, a column
  block of 1024 columns, and the contraction axis in four runs of 1024. A scratch block carries the running sum over
  a run: zero, plus the partial product of each run in turn; the last point of the run adds the bias row and writes
  the block back. The reference takes the whole product, all 4096 contraction places at once, and adds the bias.

  Over the extended reals a change of float format is the identity, a product into a zero accumulator is the plain
  sum of products, and addition is associative and commutative with no finiteness assumption; so the blocked sum
  `0 + P₀ + P₁ + P₂ + P₃` of an entry is the entry's whole sum, and the two programs agree entry by entry. The
  scatter that builds the dense weight, and its transpose, are the same operations on the same arguments in both
  programs and are never opened. Nothing here uses the precondition.

  The modules, in order: SplitSum (a sum over 4096 places as four runs), Spec (the result as one function, in both
  orders), RefValue (the reference computes it), ScratchSteps and BlockValue (what one grid point stores, as values,
  entry by entry), StagedBlocks (which block of each array a point works on), ScratchFold (the scratch over a run),
  KernelValue (the written blocks tile the result array), StagedArrays and KernelResult (the staged arrays in terms of
  the arguments).
-/
import proofs.«110400_j86208583565592_1_alg».proof.Defs
import proofs.«110400_j86208583565592_1_alg».proof.Proof.Gen.Kernel
import proofs.«110400_j86208583565592_1_alg».proof.Proof.Gen.Kernel.Skeleton
import proofs.«110400_j86208583565592_1_alg».proof.Proof.Gen.Kernel.Launch
import proofs.«110400_j86208583565592_1_alg».proof.Proof.Gen.Kernel.Points
import proofs.«110400_j86208583565592_1_alg».proof.Proof.Gen.Kernel.Frame
import proofs.«110400_j86208583565592_1_alg».proof.Proof.Gen.KernelIdeal
import proofs.«110400_j86208583565592_1_alg».proof.Proof.Gen.KernelIdeal.Skeleton
import proofs.«110400_j86208583565592_1_alg».proof.Proof.Gen.KernelIdeal.Launch
import proofs.«110400_j86208583565592_1_alg».proof.Proof.Gen.KernelIdeal.Points
import proofs.«110400_j86208583565592_1_alg».proof.Proof.Gen.KernelIdeal.Frame
import proofs.«110400_j86208583565592_1_alg».proof.Proof.Gen.ReferenceIdeal
import proofs.«110400_j86208583565592_1_alg».proof.Proof.Gen.Pre_finite_inputs
import proofs.«110400_j86208583565592_1_alg».proof.Proof.Gen.KernelIdeal.Value
import proofs.«110400_j86208583565592_1_alg».proof.Proof.Gen.ReferenceIdeal.Run
import proofs.«110400_j86208583565592_1_alg».proof.Proof.Gen.ReferenceIdeal.Read
import proofs.«110400_j86208583565592_1_alg».proof.Proof.RefValue
import proofs.«110400_j86208583565592_1_alg».proof.Proof.KernelResult
import Idealize.ShloMosaic.Adequacy
import Idealize.ShloMosaic.Init

noncomputable section

namespace Cert.Proof

open Idealize.ShloMosaic Idealize.SL.Sem Cert.Kernel

/-- Run from memories that agree on the arguments, the idealized kernel and the idealized reference end with the same
    result array: the kernel's is the specification of its arguments (the blocked sum regrouped), the reference's is
    the specification of its own. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v19_eq _ _ _ _ _).trans
    ((Cert.RefValue.result_eq _ _ _ _ _).trans (Cert.KernelIdeal.Blocks.result_eq m c).symm)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
